-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v20)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v20) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1x256x512x512 : Shape := ⟨4, ![1, 256, 512, 512]⟩
abbrev S256x256x3x3 : Shape := ⟨4, ![256, 256, 3, 3]⟩
abbrev S9x65536 : Shape := ⟨2, ![9, 65536]⟩
abbrev S_ : Shape := ⟨0, ![]⟩

class Facts : Prop where
  bcast_S_S1x256x512x512 : S_.BroadcastsInDim S1x256x512x512 (![] : Fin 0 → Fin S1x256x512x512.rank)
  reducesTo_S1x256x512x512_S_d0_1_2_3 : S1x256x512x512.ReducesTo [0, 1, 2, 3] S_
  h_S_ : 0 < S_.numel
  bcast_S_S256x256x3x3 : S_.BroadcastsInDim S256x256x3x3 (![] : Fin 0 → Fin S256x256x3x3.rank)
  reducesTo_S256x256x3x3_S_d0_1_2_3 : S256x256x3x3.ReducesTo [0, 1, 2, 3] S_

variable [Facts]

def fn {F : FTy → Type} [FloatOps F] (main_arg0 : FVec F S1x256x512x512 .f32) (main_arg1 : FVec F S256x256x3x3 .f32) (main_arg2 : IVec S9x65536 32) (main_arg3 : IVec S9x65536 32) : IVec S_ 1 :=
  let main_v0 : FVec F S1x256x512x512 .f32 := Host.absf main_arg0
  let main_cst : FVec F S_ .f32 := constant S_ .f32 0x7F800000#32
  let main_v1 : FVec F S1x256x512x512 .f32 := broadcastInDim S1x256x512x512 ![] bcast_S_S1x256x512x512 main_cst
  let main_v2 : IVec S1x256x512x512 1 := cmpf .olt main_v0 main_v1
  let main_c : IVec S_ 1 := constantI S_ 1 1#1
  let main_v3 : IVec S_ 1 := (fun x v => Host.reduce IntOp.andi x v reducesTo_S1x256x512x512_S_d0_1_2_3 h_S_) main_v2 main_c
  let main_v4 : FVec F S256x256x3x3 .f32 := Host.absf main_arg1
  let main_cst_0 : FVec F S_ .f32 := constant S_ .f32 0x7F800000#32
  let main_v5 : FVec F S256x256x3x3 .f32 := broadcastInDim S256x256x3x3 ![] bcast_S_S256x256x3x3 main_cst_0
  let main_v6 : IVec S256x256x3x3 1 := cmpf .olt main_v4 main_v5
  let main_c_1 : IVec S_ 1 := constantI S_ 1 1#1
  let main_v7 : IVec S_ 1 := (fun x v => Host.reduce IntOp.andi x v reducesTo_S256x256x3x3_S_d0_1_2_3 h_S_) main_v6 main_c_1
  let main_v8 : IVec S_ 1 := andi main_v3 main_v7
  main_v8
-- ==== Kernel.lean ====
abbrev S1x256x512x512 : Shape := ⟨4, ![1, 256, 512, 512]⟩
abbrev S256x256x3x3 : Shape := ⟨4, ![256, 256, 3, 3]⟩
abbrev S9x65536 : Shape := ⟨2, ![9, 65536]⟩
abbrev S_ : Shape := ⟨0, ![]⟩
abbrev S1x256x514x514 : Shape := ⟨4, ![1, 256, 514, 514]⟩
abbrev S256x514x514 : Shape := ⟨3, ![256, 514, 514]⟩
abbrev S9x65536x1 : Shape := ⟨3, ![9, 65536, 1]⟩
abbrev S9x65536x2 : Shape := ⟨3, ![9, 65536, 2]⟩
abbrev S256x9x65536 : Shape := ⟨3, ![256, 9, 65536]⟩
abbrev S2304x65536 : Shape := ⟨2, ![2304, 65536]⟩
abbrev S256x2304 : Shape := ⟨2, ![256, 2304]⟩
abbrev S256x65536 : Shape := ⟨2, ![256, 65536]⟩
abbrev S2304x2048 : Shape := ⟨2, ![2304, 2048]⟩
abbrev S256x2048 : Shape := ⟨2, ![256, 2048]⟩

abbrev nBuf : Space → Nat
  | .hbm => 31
  | .vmem => 5
  | .smem => 0
  | _ => 0

abbrev bufTy : (tb : Table) → Fin (tcTables nBuf tb) → BufTy
  | .hbm, ⟨0, _⟩ => ⟨S1x256x512x512, .f32⟩
  | .hbm, ⟨1, _⟩ => ⟨S256x256x3x3, .f32⟩
  | .hbm, ⟨2, _⟩ => ⟨S9x65536, .i32⟩
  | .hbm, ⟨3, _⟩ => ⟨S9x65536, .i32⟩
  | .hbm, ⟨4, _⟩ => ⟨S_, .i32⟩
  | .hbm, ⟨5, _⟩ => ⟨S_, .f32⟩
  | .hbm, ⟨6, _⟩ => ⟨S1x256x514x514, .f32⟩
  | .hbm, ⟨7, _⟩ => ⟨S256x514x514, .f32⟩
  | .hbm, ⟨8, _⟩ => ⟨S_, .i32⟩
  | .hbm, ⟨9, _⟩ => ⟨S9x65536, .i32⟩
  | .hbm, ⟨10, _⟩ => ⟨S9x65536, .i1⟩
  | .hbm, ⟨11, _⟩ => ⟨S_, .i32⟩
  | .hbm, ⟨12, _⟩ => ⟨S9x65536, .i32⟩
  | .hbm, ⟨13, _⟩ => ⟨S9x65536, .i32⟩
  | .hbm, ⟨14, _⟩ => ⟨S9x65536, .i32⟩
  | .hbm, ⟨15, _⟩ => ⟨S_, .i32⟩
  | .hbm, ⟨16, _⟩ => ⟨S9x65536, .i32⟩
  | .hbm, ⟨17, _⟩ => ⟨S9x65536, .i1⟩
  | .hbm, ⟨18, _⟩ => ⟨S_, .i32⟩
  | .hbm, ⟨19, _⟩ => ⟨S9x65536, .i32⟩
  | .hbm, ⟨20, _⟩ => ⟨S9x65536, .i32⟩
  | .hbm, ⟨21, _⟩ => ⟨S9x65536, .i32⟩
  | .hbm, ⟨22, _⟩ => ⟨S9x65536x1, .i32⟩
  | .hbm, ⟨23, _⟩ => ⟨S9x65536x1, .i32⟩
  | .hbm, ⟨24, _⟩ => ⟨S9x65536x2, .i32⟩
  | .hbm, ⟨25, _⟩ => ⟨S256x9x65536, .f32⟩
  | .hbm, ⟨26, _⟩ => ⟨S2304x65536, .f32⟩
  | .hbm, ⟨27, _⟩ => ⟨S256x2304, .f32⟩
  | .hbm, ⟨28, _⟩ => ⟨S2304x65536, .bf16⟩
  | .hbm, ⟨29, _⟩ => ⟨S256x2304, .bf16⟩
  | .hbm, ⟨30, _⟩ => ⟨S256x65536, .f32⟩
  | .local _ .vmem, ⟨0, _⟩ => ⟨S256x2304, .bf16⟩
  | .local _ .vmem, ⟨1, _⟩ => ⟨S2304x2048, .bf16⟩
  | .local _ .vmem, ⟨2, _⟩ => ⟨S2304x2048, .bf16⟩
  | .local _ .vmem, ⟨3, _⟩ => ⟨S256x2048, .f32⟩
  | .local _ .vmem, ⟨4, _⟩ => ⟨S256x2048, .f32⟩
  | _, _ => ⟨S1x256x512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_call0_v0 : Ref sig .tc := ⟨.hbm, 5, rfl⟩
abbrev main_v0 : Ref sig .tc := ⟨.hbm, 6, rfl⟩
abbrev main_v1 : Ref sig .tc := ⟨.hbm, 7, rfl⟩
abbrev main_c_0 : Ref sig .tc := ⟨.hbm, 8, rfl⟩
abbrev main_v2 : Ref sig .tc := ⟨.hbm, 9, rfl⟩
abbrev main_v3 : Ref sig .tc := ⟨.hbm, 10, rfl⟩
abbrev main_c_1 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_c_2 : Ref sig .tc := ⟨.hbm, 15, rfl⟩
abbrev main_v7 : Ref sig .tc := ⟨.hbm, 16, rfl⟩
abbrev main_v8 : Ref sig .tc := ⟨.hbm, 17, rfl⟩
abbrev main_c_3 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S256x2304 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S2304x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  pads_S1x256x512x512_S1x256x514x514_000_000_110_110 : S1x256x512x512.Pads (![0, 0, 1, 1] : Fin 4 → Nat) ![0, 0, 1, 1] ![0, 0, 0, 0] S1x256x514x514
  h_S_ : 0 < S_.numel
  shapeCasts_S1x256x514x514_S256x514x514 : S1x256x514x514.ShapeCasts S256x514x514
  bcast_S_S9x65536 : S_.BroadcastsInDim S9x65536 (![] : Fin 0 → Fin S9x65536.rank)
  bcast_S9x65536_S9x65536x1_0_1 : S9x65536.BroadcastsInDim S9x65536x1 (![0, 1] : Fin 2 → Fin S9x65536x1.rank)
  concatenates_S9x65536x1_S9x65536x1_S9x65536x2_d2 : Shape.Concatenates [S9x65536x1, S9x65536x1] S9x65536x2 2
  shapeCasts_S256x9x65536_S2304x65536 : S256x9x65536.ShapeCasts S2304x65536
  shapeCasts_S256x256x3x3_S256x2304 : S256x256x3x3.ShapeCasts S256x2304
  bitsLt_bf16_f32 : FTy.bits .bf16 < FTy.bits .f32
  inb_S256x2304_S256x2304_0_0 : ∀ a, (![0, 0] : Fin 2 → Nat) a + S256x2304.size a ≤ S256x2304.size a
  h_S256x2304 : 0 < S256x2304.numel
  shapeCasts_S256x2304_S256x2304 : S256x2304.ShapeCasts S256x2304
  inb_S2304x2048_S2304x2048_0_0 : ∀ a, (![0, 0] : Fin 2 → Nat) a + S2304x2048.size a ≤ S2304x2048.size a
  h_S2304x2048 : 0 < S2304x2048.numel
  shapeCasts_S2304x2048_S2304x2048 : S2304x2048.ShapeCasts S2304x2048
  inb_S256x2048_S256x2048_0_0 : ∀ a, (![0, 0] : Fin 2 → Nat) a + S256x2048.size a ≤ S256x2048.size a
  h_S256x2048 : 0 < S256x2048.numel
  gather_S256x514x514_S9x65536x2_S256x9x65536_0_12_n_n_12_2_25611_wf : GatherDims.WF S256x514x514 S9x65536x2 S256x9x65536 [0] [1, 2] [] [1, 2] [] 2 ![256, 1, 1]
  dot_S256x2304_S2304x2048_S256x2048_1_0_0_1_n_n_wf : DotDims.WF S256x2304 S2304x2048 S256x2048 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S256x2304.size a ≤ S256x2304.size a
  hwx0_0 : ∀ i : grid0.Coords, EltTy.bits .bf16 = 32 ∨ (Rect.block (s := S256x2304) S256x2304.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2304x2048.size a ≤ S2304x65536.size a
  hwx0_1 : ∀ i : grid0.Coords, EltTy.bits .bf16 = 32 ∨ (Rect.block (s := S2304x65536) S2304x2048.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x2048.size a ≤ S256x65536.size a
  hwx0_2 : ∀ i : grid0.Coords, EltTy.bits .f32 = 32 ∨ (Rect.block (s := S256x65536) S256x2048.size (cc0_transform_2 i) (hinb0_2 i)).WholeWords (EltTy.packing .f32)

variable [Facts₀]

def gather_S256x514x514_S9x65536x2_S256x9x65536_0_12_n_n_12_2_25611 : GatherDims S256x514x514 S9x65536x2 S256x9x65536 where
  offsetDims := [0]
  collapsedSliceDims := [1, 2]
  operandBatchingDims := []
  startIndicesBatchingDims := []
  startIndexMap := [1, 2]
  indexVectorDim := 2
  sliceSizes := ![256, 1, 1]
  wf := gather_S256x514x514_S9x65536x2_S256x9x65536_0_12_n_n_12_2_25611_wf
def dot_S256x2304_S2304x2048_S256x2048_1_0_0_1_n_n : DotDims S256x2304 S2304x2048 S256x2048 where
  lhsContracting := [1]
  rhsContracting := [0]
  lhsNonContracting := [0]
  rhsNonContracting := [1]
  lhsBatch := []
  rhsBatch := []
  wf := dot_S256x2304_S2304x2048_S256x2048_1_0_0_1_n_n_wf

abbrev win0_0 : Pipeline.Window sig grid0 :=
  Pipeline.Window.ofSpec (Memref.whole main_v19) S256x2304.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v18) S2304x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v20) S256x2048.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S1x256x512x512 : Shape := ⟨4, ![1, 256, 512, 512]⟩
abbrev S256x256x3x3 : Shape := ⟨4, ![256, 256, 3, 3]⟩
abbrev S9x65536 : Shape := ⟨2, ![9, 65536]⟩
abbrev S_ : Shape := ⟨0, ![]⟩
abbrev S1x256x514x514 : Shape := ⟨4, ![1, 256, 514, 514]⟩
abbrev S256x514x514 : Shape := ⟨3, ![256, 514, 514]⟩
abbrev S9x65536x1 : Shape := ⟨3, ![9, 65536, 1]⟩
abbrev S9x65536x2 : Shape := ⟨3, ![9, 65536, 2]⟩
abbrev S256x9x65536 : Shape := ⟨3, ![256, 9, 65536]⟩
abbrev S2304x65536 : Shape := ⟨2, ![2304, 65536]⟩
abbrev S256x2304 : Shape := ⟨2, ![256, 2304]⟩
abbrev S256x65536 : Shape := ⟨2, ![256, 65536]⟩

abbrev nBuf : Space → Nat
  | .hbm => 29
  | .vmem => 0
  | .smem => 0
  | _ => 0

abbrev bufTy : (tb : Table) → Fin (tcTables nBuf tb) → BufTy
  | .hbm, ⟨0, _⟩ => ⟨S1x256x512x512, .f32⟩
  | .hbm, ⟨1, _⟩ => ⟨S256x256x3x3, .f32⟩
  | .hbm, ⟨2, _⟩ => ⟨S9x65536, .i32⟩
  | .hbm, ⟨3, _⟩ => ⟨S9x65536, .i32⟩
  | .hbm, ⟨4, _⟩ => ⟨S_, .i32⟩
  | .hbm, ⟨5, _⟩ => ⟨S_, .f32⟩
  | .hbm, ⟨6, _⟩ => ⟨S1x256x514x514, .f32⟩
  | .hbm, ⟨7, _⟩ => ⟨S256x514x514, .f32⟩
  | .hbm, ⟨8, _⟩ => ⟨S_, .i32⟩
  | .hbm, ⟨9, _⟩ => ⟨S9x65536, .i32⟩
  | .hbm, ⟨10, _⟩ => ⟨S9x65536, .i1⟩
  | .hbm, ⟨11, _⟩ => ⟨S_, .i32⟩
  | .hbm, ⟨12, _⟩ => ⟨S9x65536, .i32⟩
  | .hbm, ⟨13, _⟩ => ⟨S9x65536, .i32⟩
  | .hbm, ⟨14, _⟩ => ⟨S9x65536, .i32⟩
  | .hbm, ⟨15, _⟩ => ⟨S_, .i32⟩
  | .hbm, ⟨16, _⟩ => ⟨S9x65536, .i32⟩
  | .hbm, ⟨17, _⟩ => ⟨S9x65536, .i1⟩
  | .hbm, ⟨18, _⟩ => ⟨S_, .i32⟩
  | .hbm, ⟨19, _⟩ => ⟨S9x65536, .i32⟩
  | .hbm, ⟨20, _⟩ => ⟨S9x65536, .i32⟩
  | .hbm, ⟨21, _⟩ => ⟨S9x65536, .i32⟩
  | .hbm, ⟨22, _⟩ => ⟨S9x65536x1, .i32⟩
  | .hbm, ⟨23, _⟩ => ⟨S9x65536x1, .i32⟩
  | .hbm, ⟨24, _⟩ => ⟨S9x65536x2, .i32⟩
  | .hbm, ⟨25, _⟩ => ⟨S256x9x65536, .f32⟩
  | .hbm, ⟨26, _⟩ => ⟨S2304x65536, .f32⟩
  | .hbm, ⟨27, _⟩ => ⟨S256x2304, .f32⟩
  | .hbm, ⟨28, _⟩ => ⟨S256x65536, .f32⟩
  | _, _ => ⟨S1x256x512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_call0_v0 : Ref sig .tc := ⟨.hbm, 5, rfl⟩
abbrev main_v0 : Ref sig .tc := ⟨.hbm, 6, rfl⟩
abbrev main_v1 : Ref sig .tc := ⟨.hbm, 7, rfl⟩
abbrev main_c_0 : Ref sig .tc := ⟨.hbm, 8, rfl⟩
abbrev main_v2 : Ref sig .tc := ⟨.hbm, 9, rfl⟩
abbrev main_v3 : Ref sig .tc := ⟨.hbm, 10, rfl⟩
abbrev main_c_1 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_c_2 : Ref sig .tc := ⟨.hbm, 15, rfl⟩
abbrev main_v7 : Ref sig .tc := ⟨.hbm, 16, rfl⟩
abbrev main_v8 : Ref sig .tc := ⟨.hbm, 17, rfl⟩
abbrev main_c_3 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩

abbrev nD : Nat := 1
abbrev τ : Topo := Topo.v7x

variable {F : FTy → Type} [FloatOps F]

class Facts₀ : Prop where
  pads_S1x256x512x512_S1x256x514x514_000_000_110_110 : S1x256x512x512.Pads (![0, 0, 1, 1] : Fin 4 → Nat) ![0, 0, 1, 1] ![0, 0, 0, 0] S1x256x514x514
  h_S_ : 0 < S_.numel
  shapeCasts_S1x256x514x514_S256x514x514 : S1x256x514x514.ShapeCasts S256x514x514
  bcast_S_S9x65536 : S_.BroadcastsInDim S9x65536 (![] : Fin 0 → Fin S9x65536.rank)
  bcast_S9x65536_S9x65536x1_0_1 : S9x65536.BroadcastsInDim S9x65536x1 (![0, 1] : Fin 2 → Fin S9x65536x1.rank)
  concatenates_S9x65536x1_S9x65536x1_S9x65536x2_d2 : Shape.Concatenates [S9x65536x1, S9x65536x1] S9x65536x2 2
  shapeCasts_S256x9x65536_S2304x65536 : S256x9x65536.ShapeCasts S2304x65536
  shapeCasts_S256x256x3x3_S256x2304 : S256x256x3x3.ShapeCasts S256x2304
  gather_S256x514x514_S9x65536x2_S256x9x65536_0_12_n_n_12_2_25611_wf : GatherDims.WF S256x514x514 S9x65536x2 S256x9x65536 [0] [1, 2] [] [1, 2] [] 2 ![256, 1, 1]
  dot_S256x2304_S2304x65536_S256x65536_1_0_0_1_n_n_wf : DotDims.WF S256x2304 S2304x65536 S256x65536 [1] [0] [0] [1] [] []

variable [Facts₀]

def gather_S256x514x514_S9x65536x2_S256x9x65536_0_12_n_n_12_2_25611 : GatherDims S256x514x514 S9x65536x2 S256x9x65536 where
  offsetDims := [0]
  collapsedSliceDims := [1, 2]
  operandBatchingDims := []
  startIndicesBatchingDims := []
  startIndexMap := [1, 2]
  indexVectorDim := 2
  sliceSizes := ![256, 1, 1]
  wf := gather_S256x514x514_S9x65536x2_S256x9x65536_0_12_n_n_12_2_25611_wf
def dot_S256x2304_S2304x65536_S256x65536_1_0_0_1_n_n : DotDims S256x2304 S2304x65536 S256x65536 where
  lhsContracting := [1]
  rhsContracting := [0]
  lhsNonContracting := [0]
  rhsNonContracting := [1]
  lhsBatch := []
  rhsBatch := []
  wf := dot_S256x2304_S2304x65536_S256x65536_1_0_0_1_n_n_wf

class Facts : Prop extends Facts₀ where

variable [Facts]
-- ==== Proof.LibContract.lean ====
import Idealize.ShloMosaic.PureOps.Ideal.Laws
import Idealize.ShloMosaic.Lib.ValueIdx

/-!
# The plain contraction `[M, K] × [K, N]` read at an entry, on the extended reals

`DotDims.plain M K N` has the fields of every printed `…_1_0_0_1_n_n` record of rank-2 operands (contract the left
operand's axis 1 with the right operand's axis 0, no batch axes). Over it the host's `dot_general` and a kernel's
`tpu.matmul` into the zero splat are both, at entry `(p, q)`, the sum over `k` of `a[p, k] · b[k, q]`.
-/

noncomputable section

namespace Cert.LibDense

open Idealize.ShloMosaic Idealize.ShloMosaic.ValueIdx

/-! ## The operand indices of the plain contraction, axis by axis

At result index `j` and contraction index `c` the left operand is read at `(j 0, c)` and the right one at `(c, j 1)`:
a kept axis reads the result index at its place, the contracted axis reads the one coordinate of `c`. -/

/-- The left operand's row is the result's row. -/
theorem plain_lhs_0 (M K N : Nat) (j : (⟨2, ![M, N]⟩ : Shape).Idx) (c : (DotDims.plain M K N).contr.Idx) :
    ((DotDims.plain M K N).lhsIdx j c 0).val = (j 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl

/-- The left operand's column is the contraction index's coordinate. -/
theorem plain_lhs_1 (M K N : Nat) (j : (⟨2, ![M, N]⟩ : Shape).Idx) (c : (DotDims.plain M K N).contr.Idx) :
    ((DotDims.plain M K N).lhsIdx j c 1).val = (c ⟨0, Nat.one_pos⟩).val :=
  (DotDims.plain M K N).lhsIdx_val_of_single rfl j c

/-- The right operand's row is the contraction index's coordinate. -/
theorem plain_rhs_0 (M K N : Nat) (j : (⟨2, ![M, N]⟩ : Shape).Idx) (c : (DotDims.plain M K N).contr.Idx) :
    ((DotDims.plain M K N).rhsIdx j c 0).val = (c ⟨0, Nat.one_pos⟩).val :=
  (DotDims.plain M K N).rhsIdx_val_of_single rfl j c

/-- The right operand's column is the result's column. -/
theorem plain_rhs_1 (M K N : Nat) (j : (⟨2, ![M, N]⟩ : Shape).Idx) (c : (DotDims.plain M K N).contr.Idx) :
    ((DotDims.plain M K N).rhsIdx j c 1).val = (j 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- The sum over the one-axis contraction index, re-indexed by its coordinate `k : Fin K` and with both operand
    indices read off: `∑ k, a[p, k] · b[k, q]`. -/
theorem plain_sum (M K N : Nat) {φ₁ φ₂ : FTy} (a : FVec Ideal (⟨2, ![M, K]⟩ : Shape) φ₁)
    (b : FVec Ideal (⟨2, ![K, N]⟩ : Shape) φ₂) (p : Fin M) (q : Fin N) :
    (∑ c : (DotDims.plain M K N).contr.Idx,
        a ((DotDims.plain M K N).lhsIdx (ix2 p q) c) * b ((DotDims.plain M K N).rhsIdx (ix2 p q) c))
      = ∑ k : Fin K, a (ix2 p k) * b (ix2 k q) := by
  rw [← Equiv.sum_comp (ValueIdx.contrEquiv1 (DotDims.plain M K N) K rfl rfl).symm]
  refine Finset.sum_congr rfl fun k _ => ?_
  have hk := ValueIdx.contrEquiv1_symm_val (DotDims.plain M K N) K rfl rfl k
  have el : (DotDims.plain M K N).lhsIdx (ix2 p q) ((ValueIdx.contrEquiv1 (DotDims.plain M K N) K rfl rfl).symm k)
      = ix2 p k := funext fun x => Fin.ext (by
    match x with
    | ⟨0, _⟩ => exact plain_lhs_0 M K N _ _
    | ⟨1, _⟩ => exact (plain_lhs_1 M K N _ _).trans hk)
  have er : (DotDims.plain M K N).rhsIdx (ix2 p q) ((ValueIdx.contrEquiv1 (DotDims.plain M K N) K rfl rfl).symm k)
      = ix2 k q := funext fun x => Fin.ext (by
    match x with
    | ⟨0, _⟩ => exact (plain_rhs_0 M K N _ _).trans hk
    | ⟨1, _⟩ => exact plain_rhs_1 M K N _ _)
  rw [el, er]

/-! ## The contraction read at an entry -/

/-- The host's `dot_general` over the plain contraction, at entry `(p, q)`: `∑ k, a[p, k] · b[k, q]`. -/
theorem dotGeneral_plain_apply (M K N : Nat) {φ₁ φ₂ : FTy} (prec : Option ContractPrecision)
    (a : FVec Ideal (⟨2, ![M, K]⟩ : Shape) φ₁) (b : FVec Ideal (⟨2, ![K, N]⟩ : Shape) φ₂) (p : Fin M) (q : Fin N) :
    Host.dotGeneral (DotDims.plain M K N) prec a b (ix2 p q) = ∑ k : Fin K, a (ix2 p k) * b (ix2 k q) := by
  simp only [Host.dotGeneral]
  rw [Ideal.dotGeneral_apply]
  exact plain_sum M K N a b p q

/-- A kernel's `tpu.matmul` over the plain contraction into the zero splat, at entry `(p, q)`: the same sum. -/
theorem matmul_plain_zero_apply (M K N : Nat) {φ₁ φ₂ : FTy} (prec : Option ContractPrecision)
    (a : FVec Ideal (⟨2, ![M, K]⟩ : Shape) φ₁) (b : FVec Ideal (⟨2, ![K, N]⟩ : Shape) φ₂) (p : Fin M) (q : Fin N) :
    matmul (DotDims.plain M K N) prec a b (constant (F := Ideal) (⟨2, ![M, N]⟩ : Shape) .f32 0x00000000#32) (ix2 p q)
      = ∑ k : Fin K, a (ix2 p k) * b (ix2 k q) := by
  simp only [matmul]
  rw [Ideal.matmul_constant_zero_apply]
  exact plain_sum M K N a b p q

end Cert.LibDense

end
-- ==== Proof.KernelTile.lean ====
import proofs.«154578_j87806311399783_1_alg».proof.Proof.Gen.KernelIdeal.Frame
import proofs.«154578_j87806311399783_1_alg».proof.Proof.LibContract
import Idealize.ShloMosaic.Lib.Pipeline.Value

/-!
# One column tile of the kernel's product

At a grid point the kernel body multiplies the whole 256 × 2304 weight block by a 2304 × 2048 column tile of the
gathered matrix, accumulating from zero: entry `(p, q)` of the stored tile is `∑ k, w[p, k] · g[k, q]`.
-/

noncomputable section

namespace Cert.KernelIdeal.Tile

open Cert.KernelIdeal Cert.KernelIdeal.Gen Idealize.ShloMosaic Idealize.ShloMosaic.ValueIdx

/-- The printed contraction record is the plain rank-2 contraction `[256, 2304] × [2304, 2048]`. -/
theorem dot_eq_plain : dot_S256x2304_S2304x2048_S256x2048_1_0_0_1_n_n = DotDims.plain 256 2304 2048 := rfl

/-- The tile the body stores, at entry `(p, q)`: the sum over the 2304 contracted positions of the weight row's entry
    times the tile column's entry (a cast to the same shape is the identity, the accumulator starts at zero). -/
theorem tile_apply (x0 : Vec Ideal S256x2304 .bf16) (x1 : Vec Ideal S2304x2048 .bf16) (p : Fin 256) (q : Fin 2048) :
    k0_pay1 (F := Ideal) x0 x1 (ix2 p q) = ∑ k : Fin 2304, x0 (ix2 p k) * x1 (ix2 k q) := by
  unfold k0_pay1
  show matmul dot_S256x2304_S2304x2048_S256x2048_1_0_0_1_n_n none (shapeCast S256x2304 x0 _) (shapeCast S2304x2048 x1 _)
    (constant (F := Ideal) S256x2048 .f32 0x00000000#32) (ix2 p q) = _
  rw [shapeCast_self, shapeCast_self, dot_eq_plain]
  exact Cert.LibDense.matmul_plain_zero_apply 256 2304 2048 none x0 x1 p q

end Cert.KernelIdeal.Tile

end
-- ==== Proof.MatProduct.lean ====
import Idealize.ShloMosaic.PureOps.Ideal
import Idealize.ShloMosaic.Lib.ValueIdx

/-!
# The product both programs compute

The sparse 3×3 convolution is one matrix product: the weights laid out as a 256 × 2304 matrix (one row per output
channel, one column per input channel and tap) times the gathered neighbourhoods laid out as a 2304 × 65536 matrix
(one column per sparse location). Entry `(p, q)` of the result is `∑ k, w[p, k] · g[k, q]` on the extended reals.
-/

noncomputable section

namespace Cert.SparseConv

open Idealize.ShloMosaic Idealize.ShloMosaic.ValueIdx

/-- The weight matrix times the matrix of gathered neighbourhoods, entry by entry. -/
def matProduct (w : (⟨2, ![256, 2304]⟩ : Shape).Idx → EReal) (g : (⟨2, ![2304, 65536]⟩ : Shape).Idx → EReal) :
    (⟨2, ![256, 65536]⟩ : Shape).Idx → EReal :=
  fun i => ∑ k : Fin 2304, w (ix2 (i 0) k) * g (ix2 k (i 1))

theorem matProduct_apply (w : (⟨2, ![256, 2304]⟩ : Shape).Idx → EReal) (g : (⟨2, ![2304, 65536]⟩ : Shape).Idx → EReal)
    (p : Fin 256) (j : Fin 65536) :
    matProduct w g (ix2 p j) = ∑ k : Fin 2304, w (ix2 p k) * g (ix2 k j) := rfl

end Cert.SparseConv

end
-- ==== Proof.KernelArray.lean ====
import proofs.«154578_j87806311399783_1_alg».proof.Proof.Gen.KernelIdeal.Value
import proofs.«154578_j87806311399783_1_alg».proof.Proof.KernelTile
import proofs.«154578_j87806311399783_1_alg».proof.Proof.MatProduct
import Idealize.ShloMosaic.Lib.Pipeline.Value

/-!
# The kernel's result array is the product

The grid has 32 points. At point `t` the weight window is the whole 256 × 2304 array, the gathered window is columns
`2048 t … 2048 t + 2047` of the 2304 × 65536 array, and the output window is the same columns of the 256 × 65536 result.
So point `t` writes back columns `2048 t …` of the product of the two arrays as the region finds them, and the 32
column tiles cover the result.
-/

noncomputable section

namespace Cert.KernelIdeal.Whole

open Cert.KernelIdeal Cert.KernelIdeal.Gen Cert.KernelIdeal.Value Idealize.ShloMosaic Idealize.ShloMosaic.TcCoe
  Idealize.SL.Sem Idealize.ShloMosaic.ValueIdx Cert.SparseConv
open Idealize.ShloMosaic.Pipeline (Dat)

variable (m : (ℓ : Loc nD τ sig) → Buf (Elt Ideal) ℓ) (ρ : Dev nD → PrngReg)

theorem hz : (![0, 0] : Fin 2 → Nat) = fun _ => 0 := funext fun a => by fin_cases a <;> rfl

/-- The block indices at point `t`: the weight window stays at block (0, 0); the gathered and the output windows are at
    block (0, t). -/
theorem idx_facts : ∀ t : Fin cfg0.N, win0_0.index t (0 : Fin 2) = 0 ∧ win0_0.index t (1 : Fin 2) = 0
    ∧ win0_1.index t (0 : Fin 2) = 0 ∧ win0_1.index t (1 : Fin 2) = t.val
    ∧ win0_2.index t (0 : Fin 2) = 0 ∧ win0_2.index t (1 : Fin 2) = t.val :=
  (by decide +kernel : ∀ t : Fin grid0.N, _)

/-- The weight matrix as the region finds it. -/
abbrev wArr (c : Dev nD) : S256x2304.Idx → EReal := V m c main_v19
/-- The gathered matrix as the region finds it. -/
abbrev gArr (c : Dev nD) : S2304x65536.Idx → EReal := V m c main_v18

/-- The weight window's block at any point is the whole weight matrix. -/
theorem wblk_apply (c : Dev nD) (t : Fin cfg0.N) (p : Fin 256) (k : Fin 2304) :
    (iblk m c 0 t : Vec Ideal S256x2304 .bf16) (ix2 p k) = wArr m c (ix2 p k) := by
  obtain ⟨e0, e1, -⟩ := idx_facts t
  unfold iblk
  rw [View.read_apply]
  show V m c main_v19 _ = V m c main_v19 _
  congr 1
  funext a
  apply Fin.ext
  match a with
  | ⟨0, _⟩ => show win0_0.index t 0 * 256 + 1 * p.val = p.val; rw [e0]; omega
  | ⟨1, _⟩ => show win0_0.index t 1 * 2304 + 1 * k.val = k.val; rw [e1]; omega

/-- The gathered window's block at point `t` is columns `2048 t …` of the gathered matrix. -/
theorem gblk_apply (c : Dev nD) (t : Fin cfg0.N) (k : Fin 2304) (q : Fin 2048) (j : Fin 65536)
    (hj : j.val = t.val * 2048 + q.val) :
    (iblk m c 1 t : Vec Ideal S2304x2048 .bf16) (ix2 k q) = gArr m c (ix2 k j) := by
  obtain ⟨-, -, e2, e3, -⟩ := idx_facts t
  unfold iblk
  rw [View.read_apply]
  show V m c main_v18 _ = V m c main_v18 _
  congr 1
  funext a
  apply Fin.ext
  match a with
  | ⟨0, _⟩ => show win0_1.index t 0 * 2304 + 1 * k.val = k.val; rw [e2]; omega
  | ⟨1, _⟩ => show win0_1.index t 1 * 2048 + 1 * q.val = j.val; rw [e3, hj]; omega

/-- What point `t` writes back is block `t` of the product of the two arrays as the region finds them. -/
theorem flushed_eq (c : Dev nD) (t : Fin cfg0.N) :
    (dats m 0 c).flushed 2 t
      = ((cfg0.win 2).blk t).view.read (Elt Ideal) (matProduct (wArr m c) (gArr m c)) := by
  rw [flushed2]
  unfold out0_2
  rw [View.canon_unit_zero hz]
  simp only [View.ld_unit_zero (S := S256x2304) hz, View.ld_unit_zero (S := S2304x2048) hz]
  obtain ⟨-, -, -, -, e4, e5⟩ := idx_facts t
  have hN : cfg0.N = 32 := N_0
  funext j
  obtain ⟨p, q, rfl⟩ : ∃ (p : Fin 256) (q : Fin 2048), j = ix2 p q := ⟨j 0, j 1, eq_ix2 j⟩
  have hq : t.val * 2048 + q.val < 65536 := by have := t.isLt; have := q.isLt; omega
  show k0_pay1 (iblk m c 0 t) (iblk m c 1 t) (ix2 p q)
    = matProduct (wArr m c) (gArr m c) (((cfg0.win 2).blk t).view.emb (ix2 p q))
  have he : ((cfg0.win 2).blk t).view.emb (ix2 p q) = ix2 p (⟨t.val * 2048 + q.val, hq⟩ : Fin 65536) := by
    funext a
    apply Fin.ext
    match a with
    | ⟨0, _⟩ => show win0_2.index t 0 * 256 + 1 * p.val = p.val; rw [e4]; omega
    | ⟨1, _⟩ => show win0_2.index t 1 * 2048 + 1 * q.val = t.val * 2048 + q.val; rw [e5]; omega
  rw [he, matProduct_apply]
  refine (Tile.tile_apply (iblk m c 0 t) (iblk m c 1 t) p q).trans ?_
  refine Finset.sum_congr rfl fun k _ => ?_
  rw [wblk_apply m c t p k, gblk_apply m c t k q ⟨_, hq⟩ rfl]

/-- An index of the result is in point `t`'s block iff each coordinate is in the block's range on its axis. -/
theorem mem_blk (t : Fin cfg0.N) (i : S256x65536.Idx) :
    i ∈ ((cfg0.win 2).blk t).view.set ↔ ∀ a : Fin 2, win0_2.index t a * S256x2048.size a ≤ (i a).val
      ∧ (i a).val < win0_2.index t a * S256x2048.size a + S256x2048.size a := by
  show i ∈ ((View.whole main_v20).slice (win0_2.rect t)).set ↔ _
  rw [View.set_slice_whole, Rect.mem_set_unit]
  exact Iff.rfl

/-- Every entry of the result lies in the column tile of the point `column / 2048`. -/
theorem cover (i : S256x65536.Idx) :
    ∃ t : Fin cfg0.N, (cfg0.win 2).flush t = true ∧ i ∈ ((cfg0.win 2).blk t).view.set := by
  have hN : cfg0.N = 32 := N_0
  have h0 : (i 0).val < 256 := (i 0).isLt
  have h1 : (i 1).val < 65536 := (i 1).isLt
  obtain ⟨t, ht⟩ : ∃ t : Fin cfg0.N, t.val = (i 1).val / 2048 := ⟨⟨(i 1).val / 2048, by rw [hN]; omega⟩, rfl⟩
  obtain ⟨-, -, -, -, e4, e5⟩ := idx_facts t
  refine ⟨t, flush0_2 t, ?_⟩
  rw [mem_blk]
  intro a
  match a with
  | ⟨0, _⟩ =>
    show win0_2.index t 0 * 256 ≤ (i 0).val ∧ (i 0).val < win0_2.index t 0 * 256 + 256
    rw [e4]; omega
  | ⟨1, _⟩ =>
    show win0_2.index t 1 * 2048 ≤ (i 1).val ∧ (i 1).val < win0_2.index t 1 * 2048 + 2048
    rw [e5, ht]; omega

/-- After the run the result array is the product of the two arrays as the region finds them. -/
theorem final (c : Dev nD) : (dats m 0 c).arrAt 2 cfg0.N = matProduct (wArr m c) (gArr m c) :=
  (dats m 0 c).arrAt_eq_of_cover 2 (matProduct (wArr m c) (gArr m c)) (fun t _ => flushed_eq m c t) cover

end Cert.KernelIdeal.Whole

end
-- ==== Proof.EntryArrays.lean ====
import proofs.«154578_j87806311399783_1_alg».proof.Proof.Gen.KernelIdeal.Frame
import proofs.«154578_j87806311399783_1_alg».proof.Proof.Gen.ReferenceIdeal.Read
import Idealize.ShloMosaic.Lib.StableHlo.Run

/-!
# The two operands of the kernel's product are the reference's

Before its one region the kernel's entry point pads the feature map, wraps negative indices, gathers the 3×3
neighbourhoods, flattens them to a 2304 × 65536 matrix and flattens the weights to 256 × 2304 — the same operations,
on the same arguments, as the reference — and then narrows both to bf16, which on the extended reals is the identity.
So the arrays the region finds are the reference's two stages of the same arguments.
-/

noncomputable section

namespace Cert.KernelIdeal.Entry

open Cert.KernelIdeal Cert.KernelIdeal.Gen Idealize.ShloMosaic Idealize.ShloMosaic.TcCoe Idealize.SL.Sem
  Idealize.ShloMosaic.StableHlo

variable (m : (ℓ : Loc nD τ sig) → Buf (Elt Ideal) ℓ)

/-- The weight operand at region entry: the argument flattened to 256 × 2304 (the narrowing to bf16 is the identity). -/
theorem weights_entry (c : Dev nD) :
    (V m c main_v19 : S256x2304.Idx → EReal)
      = Cert.ReferenceIdeal.Read.val_main_v17 (F := Ideal) (m ((c : Thread nD τ).loc main_arg1)) := by
  dsimp only [V]
  simp only [hostOps0, hostOps0_1, hostOps0_2, List.flatten_cons, List.flatten_nil, List.append_nil, List.cons_append,
    List.nil_append]
  after_results
  rfl

set_option maxHeartbeats 1000000 in
/-- The gathered operand at region entry: the padded feature map gathered at the wrapped indices and flattened to
    2304 × 65536 (the narrowing to bf16 is the identity). -/
theorem gathered_entry (c : Dev nD) :
    (V m c main_v18 : S2304x65536.Idx → EReal)
      = Cert.ReferenceIdeal.Read.val_main_v16 (F := Ideal) (m ((c : Thread nD τ).loc main_arg0))
          (m ((c : Thread nD τ).loc main_arg2)) (m ((c : Thread nD τ).loc main_arg3)) := by
  dsimp only [V]
  simp only [hostOps0, hostOps0_1, hostOps0_2, List.flatten_cons, List.flatten_nil, List.append_nil, List.cons_append,
    List.nil_append]
  after_results_simp
  rfl

end Cert.KernelIdeal.Entry

end
-- ==== Proof.KernelRun.lean ====
import proofs.«154578_j87806311399783_1_alg».proof.Proof.KernelArray
import proofs.«154578_j87806311399783_1_alg».proof.Proof.EntryArrays

/-!
# The kernel's run, read in the arguments

The result array after the run is the product of the flattened weights and the gathered neighbourhoods, both as the
reference's own stages of the argument arrays; the arguments end unchanged.
-/

noncomputable section

namespace Cert.KernelIdeal.Whole

open Cert.KernelIdeal Cert.KernelIdeal.Gen Idealize.ShloMosaic Idealize.ShloMosaic.TcCoe Idealize.SL.Sem Cert.SparseConv

variable (m : (ℓ : Loc nD τ sig) → Buf (Elt Ideal) ℓ) (ρ : Dev nD → PrngReg)

/-- The product, as a function of the argument arrays on core `c`. -/
abbrev result (c : Dev nD) : S256x65536.Idx → EReal :=
  matProduct (Cert.ReferenceIdeal.Read.val_main_v17 (F := Ideal) (m ((c : Thread nD τ).loc main_arg1)))
    (Cert.ReferenceIdeal.Read.val_main_v16 (F := Ideal) (m ((c : Thread nD τ).loc main_arg0))
      (m ((c : Thread nD τ).loc main_arg2)) (m ((c : Thread nD τ).loc main_arg3)))

/-- After the run the result array is `result` of the arguments. -/
theorem final_args (c : Dev nD) : (dats m 0 c).arrAt 2 cfg0.N = result m c :=
  (final m c).trans (congrArg₂ matProduct (Entry.weights_entry m c) (Entry.gathered_entry m c))

/-- Every weakly fair execution terminates with the result array at `result` and the arguments unchanged. -/
theorem run : θ_run defs (onTc (τ := τ) (main (F := Ideal))) ⟨m, fun _ => 0, ρ⟩ fun r => ∀ c : Dev nD,
      r.2.mem ((c : Thread nD τ).loc main_v20) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun _ h c => ⟨(h c).1.trans (final_args m c), (h c).2⟩)
    (Cert.KernelIdeal.Value.run_blocks m ρ)

end Cert.KernelIdeal.Whole

end
-- ==== Proof.ReferenceProduct.lean ====
import proofs.«154578_j87806311399783_1_alg».proof.Proof.Gen.ReferenceIdeal.Read
import proofs.«154578_j87806311399783_1_alg».proof.Proof.MatProduct

/-!
# The reference's result is the product

The reference's last operation contracts the flattened weights' columns with the gathered matrix's rows; read at an
entry it is the sum that defines `matProduct`.
-/

noncomputable section

namespace Cert.ReferenceIdeal.Product

open Cert.ReferenceIdeal Cert.ReferenceIdeal.Read Idealize.ShloMosaic Idealize.ShloMosaic.ValueIdx Cert.SparseConv

/-- The left operand's index of the contraction is `(row, k)`. -/
theorem lidx_eq (i : S256x65536.Idx) (k : Fin 2304) : lidx_main_v18 i k = ix2 (i 0) k :=
  funext fun a => Fin.ext (by match a with | ⟨0, _⟩ => rfl | ⟨1, _⟩ => rfl)

/-- The right operand's index of the contraction is `(k, column)`. -/
theorem ridx_eq (i : S256x65536.Idx) (k : Fin 2304) : ridx_main_v18 i k = ix2 k (i 1) :=
  funext fun a => Fin.ext (by match a with | ⟨0, _⟩ => rfl | ⟨1, _⟩ => rfl)

/-- The reference's result is the product of its two stages. -/
theorem result_eq (x0 : (⟨S1x256x512x512, .f32⟩ : BufTy).Contents (Elt Ideal))
    (x1 : (⟨S256x256x3x3, .f32⟩ : BufTy).Contents (Elt Ideal)) (x2 x3 : (⟨S9x65536, .i32⟩ : BufTy).Contents (Elt Ideal)) :
    (val_main_v18 (F := Ideal) x0 x1 x2 x3 : S256x65536.Idx → EReal)
      = matProduct (val_main_v17 (F := Ideal) x1) (val_main_v16 (F := Ideal) x0 x2 x3) := by
  funext i
  rw [val_main_v18_apply]
  unfold matProduct
  refine Finset.sum_congr rfl fun k _ => ?_
  rw [lidx_eq, ridx_eq]
  rfl

end Cert.ReferenceIdeal.Product

end
-- ==== Proof.lean ====
/-
  A sparse 3×3 convolution as one matrix product, certified over the extended reals.

  Both programs pad the feature map by one cell, wrap negative indices, gather the 3×3 neighbourhood of each of the
  65536 sparse locations into a 2304 × 65536 matrix `g` (row `9 c + tap`), flatten the weights to a 256 × 2304 matrix
  `w`, and return `w · g`: entry `(p, q)` is `∑ k, w[p, k] · g[k, q]`.

  The reference forms the product with one contraction. The kernel narrows both operands to bf16 — the identity on
  the extended reals — and computes the product one 2048-column tile per grid point, each tile accumulated from zero
  over all 2304 contracted positions; the 32 tiles cover the result. A tile's entry is the same sum as the
  contraction's, so no law beyond the definition of the sum is used, and the finiteness of the inputs is not needed.

  The three frames are the generated ones (the reference's is its generated run with the result dropped); the
  idealization rewrote nothing, so `preserves` is trivial.
-/
import proofs.«154578_j87806311399783_1_alg».proof.Defs
import proofs.«154578_j87806311399783_1_alg».proof.Proof.Gen.Kernel
import proofs.«154578_j87806311399783_1_alg».proof.Proof.Gen.Kernel.Skeleton
import proofs.«154578_j87806311399783_1_alg».proof.Proof.Gen.Kernel.Launch
import proofs.«154578_j87806311399783_1_alg».proof.Proof.Gen.Kernel.Points
import proofs.«154578_j87806311399783_1_alg».proof.Proof.Gen.Kernel.Frame
import proofs.«154578_j87806311399783_1_alg».proof.Proof.Gen.KernelIdeal
import proofs.«154578_j87806311399783_1_alg».proof.Proof.Gen.KernelIdeal.Skeleton
import proofs.«154578_j87806311399783_1_alg».proof.Proof.Gen.KernelIdeal.Launch
import proofs.«154578_j87806311399783_1_alg».proof.Proof.Gen.KernelIdeal.Points
import proofs.«154578_j87806311399783_1_alg».proof.Proof.Gen.KernelIdeal.Frame
import proofs.«154578_j87806311399783_1_alg».proof.Proof.Gen.ReferenceIdeal
import proofs.«154578_j87806311399783_1_alg».proof.Proof.Gen.Pre_finite_inputs
import proofs.«154578_j87806311399783_1_alg».proof.Proof.Gen.KernelIdeal.Value
import proofs.«154578_j87806311399783_1_alg».proof.Proof.Gen.ReferenceIdeal.Run
import proofs.«154578_j87806311399783_1_alg».proof.Proof.Gen.ReferenceIdeal.Read
import proofs.«154578_j87806311399783_1_alg».proof.Proof.KernelRun
import proofs.«154578_j87806311399783_1_alg».proof.Proof.ReferenceProduct
import Idealize.ShloMosaic.Adequacy
import Idealize.ShloMosaic.Init

noncomputable section

namespace Cert.Proof

open Idealize.ShloMosaic Idealize.SL.Sem Cert.Kernel

/-- The reference's frame: its generated run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- Both programs end with the product of the flattened weights and the gathered neighbourhoods of arguments that
    agree: the kernel's 32 column tiles and the reference's one contraction are the same sum at every entry. -/
theorem algebraic : Cert.algebraic_KernelIdeal_ReferenceIdeal := by
  intro m ρ m' ρ' _ hagree
  refine ⟨_, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v18_eq, Cert.ReferenceIdeal.Product.result_eq,
    (hagree c).1, (hagree c).2.1, (hagree c).2.2.1, (hagree c).2.2.2]

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  frame_reference,
  trivial,
  algebraic⟩

end Cert.Proof

end
